-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩

abbrev nBuf : Space → Nat
  | .hbm => 91
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S100000x128, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x128, .f32⟩
  | .hbm, ⟨63, _⟩ => ⟨S1700000x1, .f32⟩
  | .hbm, ⟨64, _⟩ => ⟨S1700000x128, .f32⟩
  | .hbm, ⟨65, _⟩ => ⟨S1700000x128, .f32⟩
  | .hbm, ⟨66, _⟩ => ⟨S_, .f32⟩
  | .hbm, ⟨67, _⟩ => ⟨S100000x128, .f32⟩
  | .hbm, ⟨68, _⟩ => ⟨S1700000x1, .i32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x128, .f32⟩
  | .hbm, ⟨82, _⟩ => ⟨S1700000x1, .f32⟩
  | .hbm, ⟨83, _⟩ => ⟨S1700000x128, .f32⟩
  | .hbm, ⟨84, _⟩ => ⟨S1700000x128, .f32⟩
  | .hbm, ⟨85, _⟩ => ⟨S_, .f32⟩
  | .hbm, ⟨86, _⟩ => ⟨S100000x128, .f32⟩
  | .hbm, ⟨87, _⟩ => ⟨S1700000x1, .i32⟩
  | .hbm, ⟨88, _⟩ => ⟨S100000x128, .f32⟩
  | .hbm, ⟨89, _⟩ => ⟨S1x128, .f32⟩
  | .hbm, ⟨90, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_c_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1600000 : S_.BroadcastsInDim S1600000 (![] : Fin 0 → Fin S1600000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 96
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S100000x128, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x128, .f32⟩
  | .hbm, ⟨63, _⟩ => ⟨S1700000x1, .f32⟩
  | .hbm, ⟨64, _⟩ => ⟨S1700000x128, .f32⟩
  | .hbm, ⟨65, _⟩ => ⟨S1700000x128, .f32⟩
  | .hbm, ⟨66, _⟩ => ⟨S_, .f32⟩
  | .hbm, ⟨67, _⟩ => ⟨S100000x128, .f32⟩
  | .hbm, ⟨68, _⟩ => ⟨S1700000x1, .i32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x128, .f32⟩
  | .hbm, ⟨86, _⟩ => ⟨S1700000x1, .f32⟩
  | .hbm, ⟨87, _⟩ => ⟨S1700000x128, .f32⟩
  | .hbm, ⟨88, _⟩ => ⟨S1700000x128, .f32⟩
  | .hbm, ⟨89, _⟩ => ⟨S_, .f32⟩
  | .hbm, ⟨90, _⟩ => ⟨S100000x128, .f32⟩
  | .hbm, ⟨91, _⟩ => ⟨S1700000x1, .i32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call1_cst : Ref sig .tc := ⟨.hbm, 73, rfl⟩
abbrev main_call1_v0 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1600000 : S_.BroadcastsInDim S1600000 (![] : Fin 0 → Fin S1600000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.GcnSpec.lean ====
/-
  The two-layer graph convolution as ONE function of the six inputs, over the printed vocabulary of host operations.

  With n = 100000 nodes, E = 1600000 edges, L = E + n edges once every node's self loop is appended:
    src, dst : the edge endpoints (row 0 / row 1 of the edge index) followed by 0 … n-1;
    ew       : the edge weights, 1 on the given edges and 2 on the self loops;
    deg      : deg[v] = Σ_{e : dst e = v} ew e   (a scatter-add into zeros);
    dis      : deg^(-1/2) where deg > 0, else 0;
    nrm e    : dis[src e] · ew e · dis[dst e];
    agg h    : (agg h)[v, :] = Σ_{e : dst e = v} h[src e, :] · nrm e   (gather rows, scale, scatter-add into zeros);
    layer 1  : r = max (agg (x · W1) + b1) 0;   layer 2 : out = agg (r · W2) + b2.
  An index below zero is first moved up by n (python's negative indexing), and the host gather / scatter-add treat what
  is still out of range in their own way: the same way in both programs, so none of it is opened here.
-/
import proofs.«114086_j50483045597683_1_alg».proof.Proof.Gen.KernelIdeal
import Idealize.ShloMosaic.Lib.ValueIdx
import Idealize.ShloMosaic.Lib.Pipeline.Value
import Idealize.ShloMosaic.PureOps.Ideal.Laws

noncomputable section

namespace Cert.Gcn

open Cert.KernelIdeal Cert.KernelIdeal.Gen Idealize.ShloMosaic

variable {F : FTy → Type} [FloatOps F]

/-- A bias vector as a 1 × 128 row, and that row repeated down the 100000 node rows. -/
theorem bcastRow : S128.BroadcastsInDim S1x128 (![1] : Fin 1 → Fin S1x128.rank) := by decide
theorem bcastRows : S1x128.BroadcastsInDim S100000x128 (![0, 1] : Fin 2 → Fin S100000x128.rank) := by decide

/-- The whole-array product [100000,128] · [128,128]: contraction of the left operand's axis 1 with the right's axis 0. -/
def dotBig : DotDims S100000x128 S128x128 S100000x128 where
  lhsContracting := [1]
  rhsContracting := [0]
  lhsNonContracting := [0]
  rhsNonContracting := [1]
  lhsBatch := []
  rhsBatch := []
  wf := by decide

/-- Source endpoints: row 0 of the edge index, then the self loops 0 … n-1. -/
def srcOf (ei : (⟨S2x1600000, .i32⟩ : BufTy).Contents (Elt F)) : (⟨S1700000, .i32⟩ : BufTy).Contents (Elt F) :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- Target endpoints: row 1 of the edge index, then the self loops. -/
def dstOf (ei : (⟨S2x1600000, .i32⟩ : BufTy).Contents (Elt F)) : (⟨S1700000, .i32⟩ : BufTy).Contents (Elt F) :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- Edge weights: 1 on the given edges, 2 on the self loops. -/
def ewOf : (⟨S1700000, .f32⟩ : BufTy).Contents (Elt F) :=
  concatenate S1700000 0 [⟨S1600000, (broadcastInDim S1600000 ![] bcast_S_S1600000 (constant (F := F) S_ .f32 0x3F800000#32))⟩, ⟨S100000, (broadcastInDim S100000 ![] bcast_S_S100000 (constant (F := F) S_ .f32 0x40000000#32))⟩] concatenates_S1600000_S100000_S1700000_d0

/-- Weighted in-degree: the edge weights scatter-added at the target endpoints into zeros. -/
def degOf (d : (⟨S1700000, .i32⟩ : BufTy).Contents (Elt F)) (w : (⟨S1700000, .f32⟩ : BufTy).Contents (Elt F)) : (⟨S100000, .f32⟩ : BufTy).Contents (Elt F) :=
  Host.scatterAdd scatter_S100000_S1700000x1_S1700000_n_0_0_1 (broadcastInDim S100000 ![] bcast_S_S100000 (constant (F := F) S_ .f32 0x00000000#32)) (broadcastInDim S1700000x1 ![0] bcast_S1700000_S1700000x1_0 d) w

/-- An index vector as gather / scatter start indices: a negative entry moved up by n, then one index per row. -/
def startIdx (s : (⟨S1700000, .i32⟩ : BufTy).Contents (Elt F)) : (⟨S1700000x1, .i32⟩ : BufTy).Contents (Elt F) :=
  broadcastInDim S1700000x1 ![0] bcast_S1700000_S1700000x1_0 (select (cmpi .slt s (broadcastInDim S1700000 ![] bcast_S_S1700000 (constantI S_ 32 0#32))) (addi s (broadcastInDim S1700000 ![] bcast_S_S1700000 (constantI S_ 32 100000#32))) s)

/-- Neighbourhood aggregation: rows of `h` gathered at the source endpoints, scaled by the edge's coefficient,
    scatter-added at the target endpoints into zeros. -/
def agg (h : (⟨S100000x128, .f32⟩ : BufTy).Contents (Elt F)) (s d : (⟨S1700000, .i32⟩ : BufTy).Contents (Elt F))
    (n : (⟨S1700000, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant (F := F) S_ .f32 0x00000000#32))
    (broadcastInDim S1700000x1 ![0] bcast_S1700000_S1700000x1_0 d)
    (mulf (Host.gather gather_S100000x128_S1700000x1_S1700000x128_1_0_n_n_0_1_1128 h (startIdx s))
      (broadcastInDim S1700000x128 ![0, 1] bcast_S1700000x1_S1700000x128_0_1 (broadcastInDim S1700000x1 ![0] bcast_S1700000_S1700000x1_0 n)))

/-- The dense product of a layer, on the whole arrays. -/
def dense (x : (⟨S100000x128, .f32⟩ : BufTy).Contents (Elt F)) (w : (⟨S128x128, .f32⟩ : BufTy).Contents (Elt F)) : (⟨S100000x128, .f32⟩ : BufTy).Contents (Elt F) :=
  Host.dotGeneral dotBig none x w

/-- A 1 × 128 row added to every node row. -/
def addRow (a : (⟨S100000x128, .f32⟩ : BufTy).Contents (Elt F)) (r : (⟨S1x128, .f32⟩ : BufTy).Contents (Elt F)) : (⟨S100000x128, .f32⟩ : BufTy).Contents (Elt F) :=
  addf a (broadcastInDim S100000x128 ![0, 1] bcastRows r)

/-- … and the positive part of that. -/
def addRowRelu (a : (⟨S100000x128, .f32⟩ : BufTy).Contents (Elt F)) (r : (⟨S1x128, .f32⟩ : BufTy).Contents (Elt F)) : (⟨S100000x128, .f32⟩ : BufTy).Contents (Elt F) :=
  maximumf (addRow a r) (broadcastInDim S100000x128 ![] bcast_S_S100000x128 (constant (F := F) S_ .f32 0x00000000#32))

/-- A bias vector as a row. -/
def rowOf (b : (⟨S128, .f32⟩ : BufTy).Contents (Elt F)) : (⟨S1x128, .f32⟩ : BufTy).Contents (Elt F) :=
  broadcastInDim S1x128 ![1] bcastRow b

/-- The network's value from the dense layer inputs, given the edge lists and coefficients. -/
def net (x : (⟨S100000x128, .f32⟩ : BufTy).Contents (Elt F)) (s d : (⟨S1700000, .i32⟩ : BufTy).Contents (Elt F)) (n : (⟨S1700000, .f32⟩ : BufTy).Contents (Elt F))
    (w1 : (⟨S128x128, .f32⟩ : BufTy).Contents (Elt F)) (r1 : (⟨S1x128, .f32⟩ : BufTy).Contents (Elt F))
    (w2 : (⟨S128x128, .f32⟩ : BufTy).Contents (Elt F)) (r2 : (⟨S1x128, .f32⟩ : BufTy).Contents (Elt F)) : (⟨S100000x128, .f32⟩ : BufTy).Contents (Elt F) :=
  addRow (agg (dense (addRowRelu (agg (dense x w1) s d n) r1) w2) s d n) r2

end Cert.Gcn

end
-- ==== Proof.GcnNorm.lean ====
/-
  The edge coefficients, and the network as a function of the six inputs.
    dis = deg^(-1/2) where the weighted in-degree is positive, else 0 (the reciprocal root is taken of max(deg, 1e-12));
    coefficient of edge e = dis[src e] · weight e · dis[dst e].
-/
import proofs.«114086_j50483045597683_1_alg».proof.Proof.GcnSpec

noncomputable section

namespace Cert.Gcn

open Cert.KernelIdeal Cert.KernelIdeal.Gen Idealize.ShloMosaic

variable {F : FTy → Type} [FloatOps F]

/-- Where the degree is positive. -/
def posOf (deg : (⟨S100000, .f32⟩ : BufTy).Contents (Elt F)) : (⟨S100000, .i1⟩ : BufTy).Contents (Elt F) :=
  cmpf .ogt deg (broadcastInDim S100000 ![] bcast_S_S100000 (constant (F := F) S_ .f32 0x00000000#32))

/-- The reciprocal square root of the degree kept away from zero. -/
def rsqOf (deg : (⟨S100000, .f32⟩ : BufTy).Contents (Elt F)) : (⟨S100000, .f32⟩ : BufTy).Contents (Elt F) :=
  Host.rsqrt (maximumf deg (broadcastInDim S100000 ![] bcast_S_S100000 (constant (F := F) S_ .f32 0x2B8CBCCC#32)))

/-- The choice between the two: a value where the mask is set, a splat scalar elsewhere. -/
def whereOf (p : (⟨S100000, .i1⟩ : BufTy).Contents (Elt F)) (v : (⟨S100000, .f32⟩ : BufTy).Contents (Elt F)) (z : (⟨S_, .f32⟩ : BufTy).Contents (Elt F)) :
    (⟨S100000, .f32⟩ : BufTy).Contents (Elt F) :=
  select p v (broadcastInDim S100000 ![] bcast_S_S100000 (id z))

/-- The coefficient of every edge from the per-node factor, the endpoints and the edge weights. -/
def coefOf (dis : (⟨S100000, .f32⟩ : BufTy).Contents (Elt F)) (s d : (⟨S1700000, .i32⟩ : BufTy).Contents (Elt F))
    (w : (⟨S1700000, .f32⟩ : BufTy).Contents (Elt F)) : (⟨S1700000, .f32⟩ : BufTy).Contents (Elt F) :=
  mulf (mulf (Host.gather gather_S100000_S1700000x1_S1700000_n_0_n_n_0_1_1 dis (startIdx s)) w)
    (Host.gather gather_S100000_S1700000x1_S1700000_n_0_n_n_0_1_1 dis (startIdx d))

/-- The per-node factor from the edge index. -/
def disOf (ei : (⟨S2x1600000, .i32⟩ : BufTy).Contents (Elt F)) : (⟨S100000, .f32⟩ : BufTy).Contents (Elt F) :=
  whereOf (posOf (degOf (dstOf ei) ewOf)) (rsqOf (degOf (dstOf ei) ewOf)) (constant (F := F) S_ .f32 0x00000000#32)

/-- The edge coefficients from the edge index. -/
def nrmOf (ei : (⟨S2x1600000, .i32⟩ : BufTy).Contents (Elt F)) : (⟨S1700000, .f32⟩ : BufTy).Contents (Elt F) :=
  coefOf (disOf ei) (srcOf ei) (dstOf ei) ewOf

/-- The two-layer network as a function of its six inputs. -/
def gcn (x : (⟨S100000x128, .f32⟩ : BufTy).Contents (Elt F)) (ei : (⟨S2x1600000, .i32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) : (⟨S100000x128, .f32⟩ : BufTy).Contents (Elt F) :=
  net x (srcOf ei) (dstOf ei) (nrmOf ei) w1 (rowOf b1) w2 (rowOf b2)

end Cert.Gcn

end
-- ==== Proof.KStretch.lean ====
/-
  The kernel program's stretches of host operations, each read as a function of the buffer contents `W` it starts from:
  which buffers it fills with which stage of the network, and which buffers it leaves alone.
-/
import proofs.«114086_j50483045597683_1_alg».proof.Proof.GcnNorm
import proofs.«114086_j50483045597683_1_alg».proof.Proof.Gen.KernelIdeal.Launch
import Idealize.ShloMosaic.Lib.StableHlo.Run

noncomputable section

namespace Cert.Gcn.KSide

open Cert.Gcn Cert.KernelIdeal Cert.KernelIdeal.Gen Idealize.ShloMosaic Idealize.ShloMosaic.TcCoe Idealize.SL.Sem Idealize.ShloMosaic.StableHlo

variable {F : FTy → Type} [FloatOps F] (W : Valuation τ sig (Elt F))

/-! ## The first stretch: the edge lists, the edge weights, the degree's mask and reciprocal root -/

theorem s0_v5 : after hostOps0 W (Proc.devRef .tc main_v5) = srcOf (W (Proc.devRef .tc main_arg1)) := by
  dsimp only [hostOps0]; after_results; rfl
theorem s0_v6 : after hostOps0 W (Proc.devRef .tc main_v6) = dstOf (W (Proc.devRef .tc main_arg1)) := by
  dsimp only [hostOps0]; after_results; rfl
theorem s0_v9 : after hostOps0 W (Proc.devRef .tc main_v9) = ewOf := by
  dsimp only [hostOps0]; after_results; rfl
theorem s0_v14 : after hostOps0 W (Proc.devRef .tc main_v14) = posOf (degOf (dstOf (W (Proc.devRef .tc main_arg1))) ewOf) := by
  dsimp only [hostOps0]; after_results; rfl
theorem s0_v17 : after hostOps0 W (Proc.devRef .tc main_v17) = rsqOf (degOf (dstOf (W (Proc.devRef .tc main_arg1))) ewOf) := by
  dsimp only [hostOps0]; after_results; rfl
theorem s0_cst4 : after hostOps0 W (Proc.devRef .tc main_cst_4) = constant (F := F) S_ .f32 0x00000000#32 := by
  dsimp only [hostOps0]; after_results
theorem s0_keep (b : Ref sig .tc) (hb : b ∈ [main_arg0, main_arg2, main_arg3, main_arg4, main_arg5]) :
    after hostOps0 W (Proc.devRef .tc b) = W (Proc.devRef .tc b) := by
  simp only [List.mem_cons, List.not_mem_nil, or_false] at hb
  rcases hb with rfl | rfl | rfl | rfl | rfl
  all_goals (dsimp only [hostOps0]; after_results)

/-! ## The outlined choice: the per-node factor -/

theorem s01_v18 : after hostOps0_1 W (Proc.devRef .tc main_v18) = whereOf (W (Proc.devRef .tc main_v14)) (W (Proc.devRef .tc main_v17)) (W (Proc.devRef .tc main_cst_4)) := by
  dsimp only [hostOps0_1]; after_results; rfl
theorem s01_keep (b : Ref sig .tc) (hb : b ∈ [main_v5, main_v6, main_v9, main_arg0, main_arg2, main_arg3, main_arg4, main_arg5]) :
    after hostOps0_1 W (Proc.devRef .tc b) = W (Proc.devRef .tc b) := by
  simp only [List.mem_cons, List.not_mem_nil, or_false] at hb
  rcases hb with rfl | rfl | rfl | rfl | rfl | rfl | rfl | rfl
  all_goals (dsimp only [hostOps0_1]; after_results)

/-! ## The third stretch: the edge coefficients -/

theorem s02_v34 : after hostOps0_2 W (Proc.devRef .tc main_v34) = coefOf (W (Proc.devRef .tc main_v18)) (W (Proc.devRef .tc main_v5)) (W (Proc.devRef .tc main_v6)) (W (Proc.devRef .tc main_v9)) := by
  dsimp only [hostOps0_2]; after_results_simp; rfl
theorem s02_keep (b : Ref sig .tc) (hb : b ∈ [main_v5, main_v6, main_arg0, main_arg2, main_arg3, main_arg4, main_arg5]) :
    after hostOps0_2 W (Proc.devRef .tc b) = W (Proc.devRef .tc b) := by
  simp only [List.mem_cons, List.not_mem_nil, or_false] at hb
  rcases hb with rfl | rfl | rfl | rfl | rfl | rfl | rfl
  all_goals (dsimp only [hostOps0_2]; after_results_simp)

/-! ## Between the first dense product and the first bias stage: the aggregation, and the bias as a row -/

theorem s1_v48 : after hostOps1 W (Proc.devRef .tc main_v48) = agg (W (Proc.devRef .tc main_v35)) (W (Proc.devRef .tc main_v5)) (W (Proc.devRef .tc main_v6)) (W (Proc.devRef .tc main_v34)) := by
  dsimp only [hostOps1]; after_results_simp; rfl
theorem s1_v49 : after hostOps1 W (Proc.devRef .tc main_v49) = shapeCast S1x128 (W (Proc.devRef .tc main_arg3)) shapeCasts_S128_S1x128 := by
  dsimp only [hostOps1]; after_results_simp; rfl
theorem s1_keep (b : Ref sig .tc) (hb : b ∈ [main_v5, main_v6, main_v34, main_arg4, main_arg5]) :
    after hostOps1 W (Proc.devRef .tc b) = W (Proc.devRef .tc b) := by
  simp only [List.mem_cons, List.not_mem_nil, or_false] at hb
  rcases hb with rfl | rfl | rfl | rfl | rfl
  all_goals (dsimp only [hostOps1]; after_results_simp)

/-! ## Between the second dense product and the second bias stage: the same -/

theorem s3_v64 : after hostOps3 W (Proc.devRef .tc main_v64) = agg (W (Proc.devRef .tc main_v51)) (W (Proc.devRef .tc main_v5)) (W (Proc.devRef .tc main_v6)) (W (Proc.devRef .tc main_v34)) := by
  dsimp only [hostOps3]; after_results_simp; rfl
theorem s3_v65 : after hostOps3 W (Proc.devRef .tc main_v65) = shapeCast S1x128 (W (Proc.devRef .tc main_arg5)) shapeCasts_S128_S1x128 := by
  dsimp only [hostOps3]; after_results_simp; rfl

end Cert.Gcn.KSide

end
-- ==== Proof.BiasAt.lean ====
/-
  The bias stages read at an index.  A 1 × 128 row added to every row of a block (5000 × 128) or of a whole array
  (100000 × 128) is, at row p and column q, the entry plus the row's entry at column q; the positive part takes the
  maximum of that with zero.  The kernel spells the row's repetition as a vector broadcast and the reference as a host
  broadcast; both read the row at (0, q).  A bias vector becomes that row by a reshape in one program and by a
  broadcast in the other: the same row.
-/
import proofs.«114086_j50483045597683_1_alg».proof.Proof.GcnSpec
import proofs.«114086_j50483045597683_1_alg».proof.Proof.Gen.KernelIdeal.Skeleton
import Idealize.ShloMosaic.Lib.ValueLayout

noncomputable section

namespace Cert.Gcn

open Cert.KernelIdeal Cert.KernelIdeal.Gen Idealize.ShloMosaic

variable {F : FTy → Type} [FloatOps F]

/-- Entry (0, q) of a 1 × 128 row. -/
abbrev rowIx (q : Nat) (hq : q < 128) : S1x128.Idx := fun a => match a with
  | ⟨0, _⟩ => ⟨0, Nat.one_pos⟩
  | ⟨1, _⟩ => ⟨q, hq⟩

/-- The row repeated down a block, read at an index. -/
theorem rowDownBlock_apply {α : Type} (r : S1x128.Idx → α) (j : S5000x128.Idx) :
    broadcastTo S5000x128 r broadcasts_S1x128_S5000x128 j = r (rowIx (j 1).val (j 1).isLt) :=
  broadcastTo_apply r broadcasts_S1x128_S5000x128 j (rowIx (j 1).val (j 1).isLt) (fun a => match a with
    | ⟨0, _⟩ => by show 0 = if (1 : Nat) = 1 then 0 else _; rw [if_pos rfl]
    | ⟨1, _⟩ => by show (j 1).val = if (128 : Nat) = 1 then 0 else (j 1).val; rw [if_neg (by decide)])

/-- The row repeated down the whole array, read at an index. -/
theorem rowDownArray_apply {α : Type} (r : S1x128.Idx → α) (i : S100000x128.Idx) :
    broadcastInDim S100000x128 ![0, 1] bcastRows r i = r (rowIx (i 1).val (i 1).isLt) :=
  broadcastInDim_apply _ bcastRows r i (rowIx (i 1).val (i 1).isLt) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

/-- Layer 2's bias block payload at an index. -/
theorem pay3_apply (x : Vec F S5000x128 .f32) (r : Vec F S1x128 .f32) (j : S5000x128.Idx) :
    k3_pay1 x r j = FloatOps.addf (x j) (r (rowIx (j 1).val (j 1).isLt)) := by
  unfold k3_pay1
  show FloatOps.addf (shapeCast S5000x128 x shapeCasts_S5000x128_S5000x128 j) (broadcastTo S5000x128 (shapeCast S1x128 r shapeCasts_S1x128_S1x128) broadcasts_S1x128_S5000x128 j) = _
  rw [shapeCast_self, shapeCast_self, rowDownBlock_apply]

/-- Layer 1's bias-and-positive-part block payload at an index. -/
theorem pay1_apply (x : Vec F S5000x128 .f32) (r : Vec F S1x128 .f32) (j : S5000x128.Idx) :
    k1_pay1 x r j = FloatOps.maximumf (FloatOps.addf (x j) (r (rowIx (j 1).val (j 1).isLt))) (Scalar.ofBits .f32 0x00000000#32) := by
  unfold k1_pay1
  show FloatOps.maximumf (FloatOps.addf (shapeCast S5000x128 x shapeCasts_S5000x128_S5000x128 j) (broadcastTo S5000x128 (shapeCast S1x128 r shapeCasts_S1x128_S1x128) broadcasts_S1x128_S5000x128 j)) (Scalar.ofBits .f32 0x00000000#32) = _
  rw [shapeCast_self, shapeCast_self, rowDownBlock_apply]

/-- A row added to every row of the whole array, at an index. -/
theorem addRow_apply (a : (⟨S100000x128, .f32⟩ : BufTy).Contents (Elt F)) (r : (⟨S1x128, .f32⟩ : BufTy).Contents (Elt F)) (i : S100000x128.Idx) :
    addRow a r i = FloatOps.addf (a i) (r (rowIx (i 1).val (i 1).isLt)) := by
  unfold addRow
  show FloatOps.addf (a i) (broadcastInDim S100000x128 ![0, 1] bcastRows r i) = _
  rw [rowDownArray_apply]

/-- … and its positive part, at an index. -/
theorem addRowRelu_apply (a : (⟨S100000x128, .f32⟩ : BufTy).Contents (Elt F)) (r : (⟨S1x128, .f32⟩ : BufTy).Contents (Elt F)) (i : S100000x128.Idx) :
    addRowRelu a r i = FloatOps.maximumf (FloatOps.addf (a i) (r (rowIx (i 1).val (i 1).isLt))) (Scalar.ofBits .f32 0x00000000#32) := by
  unfold addRowRelu
  show FloatOps.maximumf (addRow a r i) (broadcastInDim S100000x128 ![] bcast_S_S100000x128 (constant (F := F) S_ .f32 0x00000000#32) i) = _
  rw [addRow_apply, broadcastInDim_apply _ bcast_S_S100000x128 (constant (F := F) S_ .f32 0x00000000#32) i ValueIdx.ix0 (fun a => a.elim0)]
  rfl

/-- A bias vector reshaped to a 1 × 128 row is the vector broadcast along the row. -/
theorem reshape_eq_rowOf (b : (⟨S128, .f32⟩ : BufTy).Contents (Elt F)) :
    shapeCast S1x128 b shapeCasts_S128_S1x128 = rowOf b := by
  funext j
  obtain ⟨u, q, rfl⟩ : ∃ (u : Fin 1) (q : Fin 128), j = ValueIdx.ix2 u q := ⟨j 0, j 1, ValueIdx.eq_ix2 j⟩
  unfold rowOf
  rw [ValueIdx.shapeCast_a_1a_apply b shapeCasts_S128_S1x128 u q]
  exact (broadcastInDim_apply _ bcastRow b _ (ValueIdx.ix1 q) (fun a => match a with
    | ⟨0, _⟩ => by show q.val = if (128 : Nat) = 1 then 0 else q.val; rw [if_neg (by decide)])).symm

end Cert.Gcn

end
-- ==== Proof.DenseAt.lean ====
/-
  The dense product read at an index.  At the ideal values a block's `tpu.matmul` into a zero accumulator, of operands
  whose change of float format is the identity, is the plain sum over the 128 contracted coordinates of the products of
  the two operands' entries; the host's whole-array `dot_general` is the same sum.  Both are stated over `Fin 128`.
-/
import proofs.«114086_j50483045597683_1_alg».proof.Proof.GcnSpec
import proofs.«114086_j50483045597683_1_alg».proof.Proof.Gen.KernelIdeal.Skeleton

noncomputable section

namespace Cert.Gcn

open Cert.KernelIdeal Cert.KernelIdeal.Gen Idealize.ShloMosaic

/-! ## Entries of a block (5000 × 128), of a weight matrix (128 × 128) and of a whole array (100000 × 128) by row and column -/

abbrev blkIx (p : Nat) (hp : p < 5000) (q : Nat) (hq : q < 128) : S5000x128.Idx := fun a => match a with
  | ⟨0, _⟩ => ⟨p, hp⟩
  | ⟨1, _⟩ => ⟨q, hq⟩
abbrev wIx (p : Nat) (hp : p < 128) (q : Nat) (hq : q < 128) : S128x128.Idx := fun a => match a with
  | ⟨0, _⟩ => ⟨p, hp⟩
  | ⟨1, _⟩ => ⟨q, hq⟩
abbrev arrIx (p : Nat) (hp : p < 100000) (q : Nat) (hq : q < 128) : S100000x128.Idx := fun a => match a with
  | ⟨0, _⟩ => ⟨p, hp⟩
  | ⟨1, _⟩ => ⟨q, hq⟩

/-! ## The block product's operand indices -/

theorem lhsK_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsK_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsK_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsK_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into zeros at row `p`, column `q`: Σ_k a[p,k] · b[k,q]. -/
theorem blockDot_apply (a : FVec Ideal S5000x128 .bf16) (b : FVec Ideal S128x128 .bf16) (i : S5000x128.Idx) :
    matmul dot_S5000x128_S128x128_S5000x128_1_0_0_1_n_n none a b (constant S5000x128 .f32 0x00000000#32) i
      = ∑ k : Fin 128, a (blkIx (i 0).val (i 0).isLt k.val k.isLt) * b (wIx k.val k.isLt (i 1).val (i 1).isLt) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = blkIx (i 0).val (i 0).isLt k.val k.isLt := funext fun a => Fin.ext (by
    match a with
    | ⟨0, _⟩ => exact lhsK_0 _ _
    | ⟨1, _⟩ => exact (lhsK_1 _ _).trans hk)
  have er : dot_S5000x128_S128x128_S5000x128_1_0_0_1_n_n.rhsIdx i ((ValueIdx.contrEquiv1 dot_S5000x128_S128x128_S5000x128_1_0_0_1_n_n 128 rfl rfl).symm k) = wIx k.val k.isLt (i 1).val (i 1).isLt := funext fun a => Fin.ext (by
    match a with
    | ⟨0, _⟩ => exact (rhsK_0 _ _).trans hk
    | ⟨1, _⟩ => exact rhsK_1 _ _)
  rw [el, er]

/-- Layer 1's block payload at an index. -/
theorem pay0_apply (x : Vec Ideal S5000x128 .f32) (w : Vec Ideal S128x128 .f32) (i : S5000x128.Idx) :
    k0_pay1 (F := Ideal) x w i
      = ∑ k : Fin 128, x (blkIx (i 0).val (i 0).isLt k.val k.isLt) * w (wIx k.val k.isLt (i 1).val (i 1).isLt) := by
  unfold k0_pay1
  exact blockDot_apply _ _ i

/-- Layer 2's block payload at an index (its left operand passes through a shape cast to its own shape first). -/
theorem pay2_apply (x : Vec Ideal S5000x128 .f32) (w : Vec Ideal S128x128 .f32) (i : S5000x128.Idx) :
    k2_pay1 (F := Ideal) x w i
      = ∑ k : Fin 128, x (blkIx (i 0).val (i 0).isLt k.val k.isLt) * w (wIx k.val k.isLt (i 1).val (i 1).isLt) := by
  unfold k2_pay1
  refine (blockDot_apply _ _ i).trans ?_
  rw [shapeCast_self]
  rfl

/-! ## The whole-array product's operand indices -/

theorem lhsB_0 (i : S100000x128.Idx) (q : dotBig.contr.Idx) : (dotBig.lhsIdx i q 0).val = (i 0).val := by
  unfold DotDims.lhsIdx
  rw [dif_neg (show ¬(0 : Fin S100000x128.rank) ∈ dotBig.lhsBatch by decide), dif_pos (show (0 : Fin S100000x128.rank) ∈ dotBig.lhsNonContracting by decide)]
  rfl
theorem lhsB_1 (i : S100000x128.Idx) (q : dotBig.contr.Idx) : (dotBig.lhsIdx i q 1).val = (q ⟨0, by decide⟩).val :=
  dotBig.lhsIdx_val_of_single rfl i q
theorem rhsB_0 (i : S100000x128.Idx) (q : dotBig.contr.Idx) : (dotBig.rhsIdx i q 0).val = (q ⟨0, by decide⟩).val :=
  dotBig.rhsIdx_val_of_single rfl i q
theorem rhsB_1 (i : S100000x128.Idx) (q : dotBig.contr.Idx) : (dotBig.rhsIdx i q 1).val = (i 1).val := by
  unfold DotDims.rhsIdx
  rw [dif_neg (show ¬(1 : Fin S128x128.rank) ∈ dotBig.rhsBatch by decide), dif_pos (show (1 : Fin S128x128.rank) ∈ dotBig.rhsNonContracting by decide)]
  rfl

/-- The whole-array product at row `p`, column `q`: Σ_k x[p,k] · w[k,q]. -/
theorem dense_apply (x : (⟨S100000x128, .f32⟩ : BufTy).Contents (Elt Ideal)) (w : (⟨S128x128, .f32⟩ : BufTy).Contents (Elt Ideal)) (i : S100000x128.Idx) :
    dense (F := Ideal) x w i
      = ∑ k : Fin 128, x (arrIx (i 0).val (i 0).isLt k.val k.isLt) * w (wIx k.val k.isLt (i 1).val (i 1).isLt) := by
  unfold dense
  simp only [Host.dotGeneral]
  rw [Ideal.dotGeneral_apply, ← Equiv.sum_comp (ValueIdx.contrEquiv1 dotBig 128 rfl rfl).symm]
  refine Finset.sum_congr rfl fun k _ => ?_
  have hk := ValueIdx.contrEquiv1_symm_val dotBig 128 rfl rfl k
  have el : dotBig.lhsIdx i ((ValueIdx.contrEquiv1 dotBig 128 rfl rfl).symm k) = arrIx (i 0).val (i 0).isLt k.val k.isLt := funext fun a => Fin.ext (by
    match a with
    | ⟨0, _⟩ => exact lhsB_0 _ _
    | ⟨1, _⟩ => exact (lhsB_1 _ _).trans hk)
  have er : dotBig.rhsIdx i ((ValueIdx.contrEquiv1 dotBig 128 rfl rfl).symm k) = wIx k.val k.isLt (i 1).val (i 1).isLt := funext fun a => Fin.ext (by
    match a with
    | ⟨0, _⟩ => exact (rhsB_0 _ _).trans hk
    | ⟨1, _⟩ => exact rhsB_1 _ _)
  rw [el, er]

end Cert.Gcn

end
-- ==== Proof.Region0.lean ====
/-
  Region 0 (a dense product, 20 grid points of 5000 rows): whatever the arrays hold when the region is entered, its
  output array ends at the whole-array product of its two input arrays.  Point t stages rows 5000·t … 5000·t + 4999 of
  the left operand and the whole 128 × 128 right operand, and writes back the block product as rows 5000·t … of the
  output; entry (p, q) of that block is Σ_k x[5000·t + p, k] · w[k, q], which is entry (5000·t + p, q) of the whole
  product; the 20 blocks tile the 100000 rows.
-/
import proofs.«114086_j50483045597683_1_alg».proof.Proof.DenseAt
import proofs.«114086_j50483045597683_1_alg».proof.Proof.Gen.KernelIdeal.Frame
import Idealize.ShloMosaic.Lib.Pipeline.Value

set_option maxRecDepth 16384

noncomputable section

namespace Cert.Gcn.Region0

open Cert.Gcn Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 20 points: the left operand's and the output's block index is (t, 0), the
    right operand's (0, 0). -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays as the region finds them. -/
theorem flushed_eq (c : Dev nD) (t : Fin cfg0.N) :
    (dat0 V c).flushed 2 t = ((cfg0.win 2).blk t).view.read (Elt Ideal) (dense (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx t
  funext j
  show k0_pay1 (iblk0 V c 0 t) (iblk0 V c 1 t) j = dense (V c main_arg0) (V c main_arg2) (((cfg0.win 2).blk t).view.emb j)
  refine (pay0_apply _ _ j).trans ?_
  refine Eq.trans ?_ (dense_apply _ _ _).symm
  refine Finset.sum_congr rfl fun k _ => ?_
  have hx : iblk0 V c 0 t (blkIx (j 0).val (j 0).isLt k.val k.isLt)
      = V c main_arg0 (arrIx ((((cfg0.win 2).blk t).view.emb j) 0).val ((((cfg0.win 2).blk t).view.emb j) 0).isLt k.val k.isLt) := by
    show V c main_arg0 (((cfg0.win 0).blk t).view.emb (blkIx (j 0).val (j 0).isLt k.val k.isLt)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hw : iblk0 V c 1 t (wIx k.val k.isLt (j 1).val (j 1).isLt)
      = V c main_arg2 (wIx k.val k.isLt ((((cfg0.win 2).blk t).view.emb j) 1).val ((((cfg0.win 2).blk t).view.emb j) 1).isLt) := by
    show V c main_arg2 (((cfg0.win 1).blk t).view.emb (wIx k.val k.isLt (j 1).val (j 1).isLt)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [hx, hw]

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v35).slice (win0_2.rect t)).set ↔ _
  rw [View.set_slice_whole, Rect.mem_set_unit]
  exact Iff.rfl

/-- Row r lies in the block of point r / 5000: the blocks tile the array. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have ht : (i 0).val / 5000 < cfg0.N := by rw [hN]; omega
  refine ⟨⟨(i 0).val / 5000, ht⟩, flush0_2 _, ?_⟩
  rw [mem_blk]
  obtain ⟨e0, e1, e2, e3, e4, e5⟩ := idx ⟨(i 0).val / 5000, ht⟩
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e5]; omega

/-- The output array after the region: the whole product of the two input arrays as the region found them. -/
theorem final (c : Dev nD) : (dat0 V c).arrAt 2 cfg0.N = dense (V c main_arg0) (V c main_arg2) :=
  (dat0 V c).arrAt_eq_of_cover 2 _ (fun t _ => flushed_eq V c t) cover

end Cert.Gcn.Region0

end
-- ==== Proof.Region1.lean ====
/-
  Region 1 (a bias row added and the positive part taken, 20 grid points of 5000 rows): whatever the arrays hold when the region is entered, its output
  array ends at that function of its input array and its 1 × 128 row.  Point t stages rows 5000·t … 5000·t + 4999 of the
  input and the whole row, and writes back the block's result as the same rows of the output; entry (p, q) of the block's
  result depends on the input's entry (5000·t + p, q) and the row's entry (0, q) only; the 20 blocks tile the 100000 rows.
-/
import proofs.«114086_j50483045597683_1_alg».proof.Proof.BiasAt
import proofs.«114086_j50483045597683_1_alg».proof.Proof.Gen.KernelIdeal.Frame
import Idealize.ShloMosaic.Lib.Pipeline.Value

set_option maxRecDepth 16384

noncomputable section

namespace Cert.Gcn.Region1

open Cert.Gcn Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 20 points: the input's and the output's block index is (t, 0), the row's
    (0, 0). -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole-array function of the arrays as the region finds them. -/
theorem flushed_eq (c : Dev nD) (t : Fin cfg1.N) :
    (dat1 V c).flushed 2 t = ((cfg1.win 2).blk t).view.read (Elt Ideal) (addRowRelu (V c main_v48) (V c main_v49)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx t
  funext j
  show k1_pay1 (iblk1 V c 0 t) (iblk1 V c 1 t) j = addRowRelu (V c main_v48) (V c main_v49) (((cfg1.win 2).blk t).view.emb j)
  refine (pay1_apply _ _ j).trans ?_
  refine Eq.trans ?_ (addRowRelu_apply _ _ _).symm
  have hx : iblk1 V c 0 t j = V c main_v48 (((cfg1.win 2).blk t).view.emb j) := by
    show V c main_v48 (((cfg1.win 0).blk t).view.emb j) = _
    refine congrArg (V c main_v48) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have hr : iblk1 V c 1 t (rowIx (j 1).val (j 1).isLt)
      = V c main_v49 (rowIx ((((cfg1.win 2).blk t).view.emb j) 1).val ((((cfg1.win 2).blk t).view.emb j) 1).isLt) := by
    show V c main_v49 (((cfg1.win 1).blk t).view.emb (rowIx (j 1).val (j 1).isLt)) = _
    refine congrArg (V c main_v49) (funext fun a => Fin.ext ?_)
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  rw [hx, hr]

/-- An index of the output array is in point `t`'s block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v50).slice (win1_2.rect t)).set ↔ _
  rw [View.set_slice_whole, Rect.mem_set_unit]
  exact Iff.rfl

/-- Row r lies in the block of point r / 5000: the blocks tile the array. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  have ht : (i 0).val / 5000 < cfg1.N := by rw [hN]; omega
  refine ⟨⟨(i 0).val / 5000, ht⟩, flush1_2 _, ?_⟩
  rw [mem_blk]
  obtain ⟨e0, e1, e2, e3, e4, e5⟩ := idx ⟨(i 0).val / 5000, ht⟩
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 128 ≤ (i 1).val ∧ (i 1).val < win1_2.index ⟨(i 0).val / 5000, ht⟩ (1 : Fin 2) * 128 + 128
    rw [e5]; omega

/-- The output array after the region: the whole-array function of the input array and the row as the region found them. -/
theorem final (c : Dev nD) : (dat1 V c).arrAt 2 cfg1.N = addRowRelu (V c main_v48) (V c main_v49) :=
  (dat1 V c).arrAt_eq_of_cover 2 _ (fun t _ => flushed_eq V c t) cover

end Cert.Gcn.Region1

end
-- ==== Proof.Region2.lean ====
/-
  Region 2 (a dense product, 20 grid points of 5000 rows): whatever the arrays hold when the region is entered, its
  output array ends at the whole-array product of its two input arrays.  Point t stages rows 5000·t … 5000·t + 4999 of
  the left operand and the whole 128 × 128 right operand, and writes back the block product as rows 5000·t … of the
  output; entry (p, q) of that block is Σ_k x[5000·t + p, k] · w[k, q], which is entry (5000·t + p, q) of the whole
  product; the 20 blocks tile the 100000 rows.
-/
import proofs.«114086_j50483045597683_1_alg».proof.Proof.DenseAt
import proofs.«114086_j50483045597683_1_alg».proof.Proof.Gen.KernelIdeal.Frame
import Idealize.ShloMosaic.Lib.Pipeline.Value

set_option maxRecDepth 16384

noncomputable section

namespace Cert.Gcn.Region2

open Cert.Gcn Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 20 points: the left operand's and the output's block index is (t, 0), the
    right operand's (0, 0). -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole product of the arrays as the region finds them. -/
theorem flushed_eq (c : Dev nD) (t : Fin cfg2.N) :
    (dat2 V c).flushed 2 t = ((cfg2.win 2).blk t).view.read (Elt Ideal) (dense (V c main_v50) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx t
  funext j
  show k2_pay1 (iblk2 V c 0 t) (iblk2 V c 1 t) j = dense (V c main_v50) (V c main_arg4) (((cfg2.win 2).blk t).view.emb j)
  refine (pay2_apply _ _ j).trans ?_
  refine Eq.trans ?_ (dense_apply _ _ _).symm
  refine Finset.sum_congr rfl fun k _ => ?_
  have hx : iblk2 V c 0 t (blkIx (j 0).val (j 0).isLt k.val k.isLt)
      = V c main_v50 (arrIx ((((cfg2.win 2).blk t).view.emb j) 0).val ((((cfg2.win 2).blk t).view.emb j) 0).isLt k.val k.isLt) := by
    show V c main_v50 (((cfg2.win 0).blk t).view.emb (blkIx (j 0).val (j 0).isLt k.val k.isLt)) = _
    refine congrArg (V c main_v50) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have hw : iblk2 V c 1 t (wIx k.val k.isLt (j 1).val (j 1).isLt)
      = V c main_arg4 (wIx k.val k.isLt ((((cfg2.win 2).blk t).view.emb j) 1).val ((((cfg2.win 2).blk t).view.emb j) 1).isLt) := by
    show V c main_arg4 (((cfg2.win 1).blk t).view.emb (wIx k.val k.isLt (j 1).val (j 1).isLt)) = _
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  rw [hx, hw]

/-- An index of the output array is in point `t`'s block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v51).slice (win2_2.rect t)).set ↔ _
  rw [View.set_slice_whole, Rect.mem_set_unit]
  exact Iff.rfl

/-- Row r lies in the block of point r / 5000: the blocks tile the array. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  have ht : (i 0).val / 5000 < cfg2.N := by rw [hN]; omega
  refine ⟨⟨(i 0).val / 5000, ht⟩, flush2_2 _, ?_⟩
  rw [mem_blk]
  obtain ⟨e0, e1, e2, e3, e4, e5⟩ := idx ⟨(i 0).val / 5000, ht⟩
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 128 ≤ (i 1).val ∧ (i 1).val < win2_2.index ⟨(i 0).val / 5000, ht⟩ (1 : Fin 2) * 128 + 128
    rw [e5]; omega

/-- The output array after the region: the whole product of the two input arrays as the region found them. -/
theorem final (c : Dev nD) : (dat2 V c).arrAt 2 cfg2.N = dense (V c main_v50) (V c main_arg4) :=
  (dat2 V c).arrAt_eq_of_cover 2 _ (fun t _ => flushed_eq V c t) cover

end Cert.Gcn.Region2

end
-- ==== Proof.Region3.lean ====
/-
  Region 3 (a bias row added, 20 grid points of 5000 rows): whatever the arrays hold when the region is entered, its output
  array ends at that function of its input array and its 1 × 128 row.  Point t stages rows 5000·t … 5000·t + 4999 of the
  input and the whole row, and writes back the block's result as the same rows of the output; entry (p, q) of the block's
  result depends on the input's entry (5000·t + p, q) and the row's entry (0, q) only; the 20 blocks tile the 100000 rows.
-/
import proofs.«114086_j50483045597683_1_alg».proof.Proof.BiasAt
import proofs.«114086_j50483045597683_1_alg».proof.Proof.Gen.KernelIdeal.Frame
import Idealize.ShloMosaic.Lib.Pipeline.Value

set_option maxRecDepth 16384

noncomputable section

namespace Cert.Gcn.Region3

open Cert.Gcn Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 20 points: the input's and the output's block index is (t, 0), the row's
    (0, 0). -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the whole-array function of the arrays as the region finds them. -/
theorem flushed_eq (c : Dev nD) (t : Fin cfg3.N) :
    (dat3 V c).flushed 2 t = ((cfg3.win 2).blk t).view.read (Elt Ideal) (addRow (V c main_v64) (V c main_v65)) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨e0, e1, e2, e3, e4, e5⟩ := idx t
  funext j
  show k3_pay1 (iblk3 V c 0 t) (iblk3 V c 1 t) j = addRow (V c main_v64) (V c main_v65) (((cfg3.win 2).blk t).view.emb j)
  refine (pay3_apply _ _ j).trans ?_
  refine Eq.trans ?_ (addRow_apply _ _ _).symm
  have hx : iblk3 V c 0 t j = V c main_v64 (((cfg3.win 2).blk t).view.emb j) := by
    show V c main_v64 (((cfg3.win 0).blk t).view.emb j) = _
    refine congrArg (V c main_v64) (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have hr : iblk3 V c 1 t (rowIx (j 1).val (j 1).isLt)
      = V c main_v65 (rowIx ((((cfg3.win 2).blk t).view.emb j) 1).val ((((cfg3.win 2).blk t).view.emb j) 1).isLt) := by
    show V c main_v65 (((cfg3.win 1).blk t).view.emb (rowIx (j 1).val (j 1).isLt)) = _
    refine congrArg (V c main_v65) (funext fun a => Fin.ext ?_)
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  rw [hx, hr]

/-- An index of the output array is in point `t`'s block iff each coordinate is in the block's range on its axis. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v66).slice (win3_2.rect t)).set ↔ _
  rw [View.set_slice_whole, Rect.mem_set_unit]
  exact Iff.rfl

/-- Row r lies in the block of point r / 5000: the blocks tile the array. -/
theorem cover (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  have ht : (i 0).val / 5000 < cfg3.N := by rw [hN]; omega
  refine ⟨⟨(i 0).val / 5000, ht⟩, flush3_2 _, ?_⟩
  rw [mem_blk]
  obtain ⟨e0, e1, e2, e3, e4, e5⟩ := idx ⟨(i 0).val / 5000, ht⟩
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ (1 : Fin 2) * 128 ≤ (i 1).val ∧ (i 1).val < win3_2.index ⟨(i 0).val / 5000, ht⟩ (1 : Fin 2) * 128 + 128
    rw [e5]; omega

/-- The output array after the region: the whole-array function of the input array and the row as the region found them. -/
theorem final (c : Dev nD) : (dat3 V c).arrAt 2 cfg3.N = addRow (V c main_v64) (V c main_v65) :=
  (dat3 V c).arrAt_eq_of_cover 2 _ (fun t _ => flushed_eq V c t) cover

end Cert.Gcn.Region3

end
-- ==== Proof.KernelValue.lean ====
/-
  The kernel program's result as a function of its six inputs: the buffer contents at the boundaries between the host
  stretches and the four regions, followed from the launch to the return.  Each region's output array is the whole-array
  function of its input arrays (the four region modules); each host stretch fills its buffers with a stage of the network
  and leaves the others alone; a region leaves alone every buffer that is none of its three arrays.
-/
import proofs.«114086_j50483045597683_1_alg».proof.Proof.KStretch
import proofs.«114086_j50483045597683_1_alg».proof.Proof.BiasAt
import proofs.«114086_j50483045597683_1_alg».proof.Proof.Region0
import proofs.«114086_j50483045597683_1_alg».proof.Proof.Region1
import proofs.«114086_j50483045597683_1_alg».proof.Proof.Region2
import proofs.«114086_j50483045597683_1_alg».proof.Proof.Region3
import proofs.«114086_j50483045597683_1_alg».proof.Proof.Gen.KernelIdeal.Frame

set_option maxRecDepth 16384

noncomputable section

namespace Cert.Gcn.KSide

open Cert.Gcn Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## Up to the first region's entry -/

/-- The dense layers' weights and the biases are still the launch contents when the first region is entered. -/
theorem W3_arg (c : Dev nD) (b : Ref sig .tc) (hb : b ∈ [main_arg0, main_arg2, main_arg3, main_arg4, main_arg5]) :
    W3 m ρ c (Proc.devRef .tc b) = m ((c : Thread nD τ).loc b) := by
  simp only [List.mem_cons, List.not_mem_nil, or_false] at hb
  rcases hb with rfl | rfl | rfl | rfl | rfl
  all_goals exact (s02_keep (W2 m ρ c) _ (by decide)).trans ((s01_keep (W1 m ρ c) _ (by decide)).trans ((s0_keep (W0 m ρ c) _ (by decide)).trans rfl))

theorem W3_v5 (c : Dev nD) : W3 m ρ c (Proc.devRef .tc main_v5) = srcOf (m ((c : Thread nD τ).loc main_arg1)) :=
  (s02_keep (W2 m ρ c) _ (by decide)).trans ((s01_keep (W1 m ρ c) _ (by decide)).trans (s0_v5 (W0 m ρ c)))
theorem W3_v6 (c : Dev nD) : W3 m ρ c (Proc.devRef .tc main_v6) = dstOf (m ((c : Thread nD τ).loc main_arg1)) :=
  (s02_keep (W2 m ρ c) _ (by decide)).trans ((s01_keep (W1 m ρ c) _ (by decide)).trans (s0_v6 (W0 m ρ c)))

theorem W2_v18 (c : Dev nD) : W2 m ρ c (Proc.devRef .tc main_v18) = disOf (m ((c : Thread nD τ).loc main_arg1)) := by
  refine (s01_v18 (W1 m ρ c)).trans ?_
  rw [show W1 m ρ c (Proc.devRef .tc main_v14) = _ from s0_v14 (W0 m ρ c),
    show W1 m ρ c (Proc.devRef .tc main_v17) = _ from s0_v17 (W0 m ρ c),
    show W1 m ρ c (Proc.devRef .tc main_cst_4) = _ from s0_cst4 (W0 m ρ c)]
  rfl

theorem W3_v34 (c : Dev nD) : W3 m ρ c (Proc.devRef .tc main_v34) = nrmOf (m ((c : Thread nD τ).loc main_arg1)) := by
  refine (s02_v34 (W2 m ρ c)).trans ?_
  rw [W2_v18 m ρ c,
    show W2 m ρ c (Proc.devRef .tc main_v5) = _ from (s01_keep (W1 m ρ c) _ (by decide)).trans (s0_v5 (W0 m ρ c)),
    show W2 m ρ c (Proc.devRef .tc main_v6) = _ from (s01_keep (W1 m ρ c) _ (by decide)).trans (s0_v6 (W0 m ρ c)),
    show W2 m ρ c (Proc.devRef .tc main_v9) = _ from (s01_keep (W1 m ρ c) _ (by decide)).trans (s0_v9 (W0 m ρ c))]
  rfl

/-! ## The first layer -/

theorem W4_v35 (c : Dev nD) : W4 m ρ c (Proc.devRef .tc main_v35) = dense (m ((c : Thread nD τ).loc main_arg0)) (m ((c : Thread nD τ).loc main_arg2)) := by
  refine (W4_arr m ρ c 2).trans ((Region0.final (V3 m ρ) c).trans ?_)
  rw [show V3 m ρ c main_arg0 = _ from W3_arg m ρ c main_arg0 (by decide), show V3 m ρ c main_arg2 = _ from W3_arg m ρ c main_arg2 (by decide)]

theorem W5_v48 (c : Dev nD) : W5 m ρ c (Proc.devRef .tc main_v48)
    = agg (dense (m ((c : Thread nD τ).loc main_arg0)) (m ((c : Thread nD τ).loc main_arg2))) (srcOf (m ((c : Thread nD τ).loc main_arg1))) (dstOf (m ((c : Thread nD τ).loc main_arg1))) (nrmOf (m ((c : Thread nD τ).loc main_arg1))) := by
  refine (s1_v48 (W4 m ρ c)).trans ?_
  rw [W4_v35 m ρ c,
    show W4 m ρ c (Proc.devRef .tc main_v5) = _ from (W4_of_ne m ρ c main_v5 (by decide)).trans (W3_v5 m ρ c),
    show W4 m ρ c (Proc.devRef .tc main_v6) = _ from (W4_of_ne m ρ c main_v6 (by decide)).trans (W3_v6 m ρ c),
    show W4 m ρ c (Proc.devRef .tc main_v34) = _ from (W4_of_ne m ρ c main_v34 (by decide)).trans (W3_v34 m ρ c)]

theorem W5_v49 (c : Dev nD) : W5 m ρ c (Proc.devRef .tc main_v49) = rowOf (m ((c : Thread nD τ).loc main_arg3)) := by
  refine (s1_v49 (W4 m ρ c)).trans ?_
  rw [show W4 m ρ c (Proc.devRef .tc main_arg3) = _ from (W4_of_ne m ρ c main_arg3 (by decide)).trans (W3_arg m ρ c main_arg3 (by decide))]
  exact reshape_eq_rowOf _

theorem W6_v50 (c : Dev nD) : W6 m ρ c (Proc.devRef .tc main_v50)
    = addRowRelu (agg (dense (m ((c : Thread nD τ).loc main_arg0)) (m ((c : Thread nD τ).loc main_arg2))) (srcOf (m ((c : Thread nD τ).loc main_arg1))) (dstOf (m ((c : Thread nD τ).loc main_arg1))) (nrmOf (m ((c : Thread nD τ).loc main_arg1)))) (rowOf (m ((c : Thread nD τ).loc main_arg3))) := by
  refine (W6_arr m ρ c 2).trans ((Region1.final (V5 m ρ) c).trans ?_)
  rw [show V5 m ρ c main_v48 = _ from W5_v48 m ρ c, show V5 m ρ c main_v49 = _ from W5_v49 m ρ c]

/-! ## The second layer -/

/-- What the second layer still reads of the first stretches' buffers is untouched by the first layer. -/
theorem W4_keep (c : Dev nD) (b : Ref sig .tc) (hb : b ∈ [main_v5, main_v6, main_v34, main_arg5]) :
    W7 m ρ c (Proc.devRef .tc b) = W3 m ρ c (Proc.devRef .tc b) := by
  simp only [List.mem_cons, List.not_mem_nil, or_false] at hb
  rcases hb with rfl | rfl | rfl | rfl
  all_goals exact (W7_of_ne m ρ c _ (by decide)).trans ((W6_of_ne m ρ c _ (by decide)).trans ((s1_keep (W4 m ρ c) _ (by decide)).trans (W4_of_ne m ρ c _ (by decide))))

theorem W7_v51 (c : Dev nD) : W7 m ρ c (Proc.devRef .tc main_v51)
    = dense (addRowRelu (agg (dense (m ((c : Thread nD τ).loc main_arg0)) (m ((c : Thread nD τ).loc main_arg2))) (srcOf (m ((c : Thread nD τ).loc main_arg1))) (dstOf (m ((c : Thread nD τ).loc main_arg1))) (nrmOf (m ((c : Thread nD τ).loc main_arg1)))) (rowOf (m ((c : Thread nD τ).loc main_arg3)))) (m ((c : Thread nD τ).loc main_arg4)) := by
  refine (W7_arr m ρ c 2).trans ((Region2.final (V6 m ρ) c).trans ?_)
  rw [show V6 m ρ c main_v50 = _ from W6_v50 m ρ c,
    show V6 m ρ c main_arg4 = _ from (W6_of_ne m ρ c main_arg4 (by decide)).trans ((s1_keep (W4 m ρ c) _ (by decide)).trans ((W4_of_ne m ρ c main_arg4 (by decide)).trans (W3_arg m ρ c main_arg4 (by decide))))]

/-- The kernel program's result buffer at the return, as the network's function of the launch contents. -/
theorem value (c : Dev nD) : W9 m ρ c (Proc.devRef .tc main_v66)
    = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ((Region3.final (V8 m ρ) c).trans ?_)
  rw [show V8 m ρ c main_v64 = _ from s3_v64 (W7 m ρ c), show V8 m ρ c main_v65 = _ from s3_v65 (W7 m ρ c),
    W7_v51 m ρ c, W4_keep m ρ c main_v5 (by decide), W4_keep m ρ c main_v6 (by decide), W4_keep m ρ c main_v34 (by decide),
    W4_keep m ρ c main_arg5 (by decide), W3_v5 m ρ c, W3_v6 m ρ c, W3_v34 m ρ c, W3_arg m ρ c main_arg5 (by decide), reshape_eq_rowOf]
  rfl

end Cert.Gcn.KSide

end
-- ==== Proof.RStretch.lean ====
/-
  The reference program's operation list cut into stretches, each read as a function of the buffer contents `W` it starts
  from: which buffers it fills with which stage of the network, and which buffers it leaves alone.  The stretches are the
  reference's own operations in order: the edge lists and the degree; the outlined choice; the edge coefficients; the
  first dense product; the first aggregation; bias, positive part and the second dense product; the second aggregation;
  the last bias.
-/
import proofs.«114086_j50483045597683_1_alg».proof.Proof.GcnNorm
import proofs.«114086_j50483045597683_1_alg».proof.Proof.RefOps
import Idealize.ShloMosaic.Lib.StableHlo.Run
import Idealize.ShloMosaic.Lib.Pipeline.Frame

noncomputable section

namespace Cert.Gcn.RSide

open Cert.Gcn Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- The edge lists, the edge weights, the degree's mask and reciprocal root. -/
abbrev r0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0),
    binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1600000 ![] bcast_S_S1600000 : (⟨S_, .f32⟩ : BufTy).Contents (Elt F) → (⟨S1600000, .f32⟩ : BufTy).Contents (Elt F)),
    nullary main_cst_0 (constant S_ .f32 0x40000000#32),
    unary main_cst_0 main_v8 (broadcastInDim S100000 ![] bcast_S_S100000 : (⟨S_, .f32⟩ : BufTy).Contents (Elt F) → (⟨S100000, .f32⟩ : BufTy).Contents (Elt F)),
    binary main_v7 main_v8 main_v9 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    nullary main_cst_1 (constant S_ .f32 0x00000000#32),
    unary main_cst_1 main_v10 (broadcastInDim S100000 ![] bcast_S_S100000 : (⟨S_, .f32⟩ : BufTy).Contents (Elt F) → (⟨S100000, .f32⟩ : BufTy).Contents (Elt F)),
    unary main_v6 main_v11 (broadcastInDim S1700000x1 ![0] bcast_S1700000_S1700000x1_0 : (⟨S1700000, .i32⟩ : BufTy).Contents (Elt F) → (⟨S1700000x1, .i32⟩ : BufTy).Contents (Elt F)),
    ternary main_v10 main_v11 main_v9 main_v12 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_2 (constant S_ .f32 0x00000000#32),
    unary main_cst_2 main_v13 (broadcastInDim S100000 ![] bcast_S_S100000 : (⟨S_, .f32⟩ : BufTy).Contents (Elt F) → (⟨S100000, .f32⟩ : BufTy).Contents (Elt F)),
    binary main_v12 main_v13 main_v14 (cmpf .ogt : (⟨S100000, .f32⟩ : BufTy).Contents (Elt F) → (⟨S100000, .f32⟩ : BufTy).Contents (Elt F) → (⟨S100000, .i1⟩ : BufTy).Contents (Elt F)),
    nullary main_cst_3 (constant S_ .f32 0x2B8CBCCC#32),
    unary main_cst_3 main_v15 (broadcastInDim S100000 ![] bcast_S_S100000 : (⟨S_, .f32⟩ : BufTy).Contents (Elt F) → (⟨S100000, .f32⟩ : BufTy).Contents (Elt F)),
    binary main_v12 main_v15 main_v16 (maximumf : (⟨S100000, .f32⟩ : BufTy).Contents (Elt F) → (⟨S100000, .f32⟩ : BufTy).Contents (Elt F) → (⟨S100000, .f32⟩ : BufTy).Contents (Elt F)),
    unary main_v16 main_v17 (Host.rsqrt : (⟨S100000, .f32⟩ : BufTy).Contents (Elt F) → (⟨S100000, .f32⟩ : BufTy).Contents (Elt F)),
    nullary main_cst_4 (constant S_ .f32 0x00000000#32) ]
/-- The outlined choice. -/
abbrev r01 : List (HloOp τ sig (Elt F)) :=
  [ TRef.unary (TRef.of (T := ⟨S_, .f32⟩) main_cst_4) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v14) (TRef.of (T := ⟨S100000, .f32⟩) main_v17) (TRef.of (T := ⟨S100000, .f32⟩) main_call0_v1) (TRef.of (T := ⟨S100000, .f32⟩) main_v18) select ]
/-- The edge coefficients. -/
abbrev r02 : List (HloOp τ sig (Elt F)) :=
  [ nullary main_c (constantI S_ 32 0#32),
    unary main_c main_v19 (broadcastInDim S1700000 ![] bcast_S_S1700000 : (⟨S_, .i32⟩ : BufTy).Contents (Elt F) → (⟨S1700000, .i32⟩ : BufTy).Contents (Elt F)),
    binary main_v5 main_v19 main_v20 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v21 (broadcastInDim S1700000 ![] bcast_S_S1700000 : (⟨S_, .i32⟩ : BufTy).Contents (Elt F) → (⟨S1700000, .i32⟩ : BufTy).Contents (Elt F)),
    binary main_v5 main_v21 main_v22 (addi : (⟨S1700000, .i32⟩ : BufTy).Contents (Elt F) → (⟨S1700000, .i32⟩ : BufTy).Contents (Elt F) → (⟨S1700000, .i32⟩ : BufTy).Contents (Elt F)),
    ternary main_v20 main_v22 main_v5 main_v23 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v23 main_v24 (broadcastInDim S1700000x1 ![0] bcast_S1700000_S1700000x1_0 : (⟨S1700000, .i32⟩ : BufTy).Contents (Elt F) → (⟨S1700000x1, .i32⟩ : BufTy).Contents (Elt F)),
    binary main_v18 main_v24 main_v25 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v25 main_v9 main_v26 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v27 (broadcastInDim S1700000 ![] bcast_S_S1700000 : (⟨S_, .i32⟩ : BufTy).Contents (Elt F) → (⟨S1700000, .i32⟩ : BufTy).Contents (Elt F)),
    binary main_v6 main_v27 main_v28 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v29 (broadcastInDim S1700000 ![] bcast_S_S1700000 : (⟨S_, .i32⟩ : BufTy).Contents (Elt F) → (⟨S1700000, .i32⟩ : BufTy).Contents (Elt F)),
    binary main_v6 main_v29 main_v30 (addi : (⟨S1700000, .i32⟩ : BufTy).Contents (Elt F) → (⟨S1700000, .i32⟩ : BufTy).Contents (Elt F) → (⟨S1700000, .i32⟩ : BufTy).Contents (Elt F)),
    ternary main_v28 main_v30 main_v6 main_v31 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v31 main_v32 (broadcastInDim S1700000x1 ![0] bcast_S1700000_S1700000x1_0 : (⟨S1700000, .i32⟩ : BufTy).Contents (Elt F) → (⟨S1700000x1, .i32⟩ : BufTy).Contents (Elt F)),
    binary main_v18 main_v32 main_v33 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v26 main_v33 main_v34 (mulf : (⟨S1700000, .f32⟩ : BufTy).Contents (Elt F) → (⟨S1700000, .f32⟩ : BufTy).Contents (Elt F) → (⟨S1700000, .f32⟩ : BufTy).Contents (Elt F)) ]
/-- The first dense product. -/
abbrev rDot1 : List (HloOp τ sig (Elt F)) :=
  [ binary main_arg0 main_arg2 main_v35 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]
/-- The first aggregation. -/
abbrev r1 : List (HloOp τ sig (Elt F)) :=
  [ nullary main_c_8 (constantI S_ 32 0#32),
    unary main_c_8 main_v36 (broadcastInDim S1700000 ![] bcast_S_S1700000 : (⟨S_, .i32⟩ : BufTy).Contents (Elt F) → (⟨S1700000, .i32⟩ : BufTy).Contents (Elt F)),
    binary main_v5 main_v36 main_v37 (cmpi .slt : (⟨S1700000, .i32⟩ : BufTy).Contents (Elt F) → (⟨S1700000, .i32⟩ : BufTy).Contents (Elt F) → (⟨S1700000, .i1⟩ : BufTy).Contents (Elt F)),
    nullary main_c_9 (constantI S_ 32 100000#32),
    unary main_c_9 main_v38 (broadcastInDim S1700000 ![] bcast_S_S1700000 : (⟨S_, .i32⟩ : BufTy).Contents (Elt F) → (⟨S1700000, .i32⟩ : BufTy).Contents (Elt F)),
    binary main_v5 main_v38 main_v39 (addi : (⟨S1700000, .i32⟩ : BufTy).Contents (Elt F) → (⟨S1700000, .i32⟩ : BufTy).Contents (Elt F) → (⟨S1700000, .i32⟩ : BufTy).Contents (Elt F)),
    ternary main_v37 main_v39 main_v5 main_v40 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v40 main_v41 (broadcastInDim S1700000x1 ![0] bcast_S1700000_S1700000x1_0 : (⟨S1700000, .i32⟩ : BufTy).Contents (Elt F) → (⟨S1700000x1, .i32⟩ : BufTy).Contents (Elt F)),
    binary main_v35 main_v41 main_v42 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v34 main_v43 (broadcastInDim S1700000x1 ![0] bcast_S1700000_S1700000x1_0 : (⟨S1700000, .f32⟩ : BufTy).Contents (Elt F) → (⟨S1700000x1, .f32⟩ : BufTy).Contents (Elt F)),
    unary main_v43 main_v44 (broadcastInDim S1700000x128 ![0, 1] bcast_S1700000x1_S1700000x128_0_1 : (⟨S1700000x1, .f32⟩ : BufTy).Contents (Elt F) → (⟨S1700000x128, .f32⟩ : BufTy).Contents (Elt F)),
    binary main_v42 main_v44 main_v45 (mulf : (⟨S1700000x128, .f32⟩ : BufTy).Contents (Elt F) → (⟨S1700000x128, .f32⟩ : BufTy).Contents (Elt F) → (⟨S1700000x128, .f32⟩ : BufTy).Contents (Elt F)),
    nullary main_cst_10 (constant S_ .f32 0x00000000#32),
    unary main_cst_10 main_v46 (broadcastInDim S100000x128 ![] bcast_S_S100000x128 : (⟨S_, .f32⟩ : BufTy).Contents (Elt F) → (⟨S100000x128, .f32⟩ : BufTy).Contents (Elt F)),
    unary main_v6 main_v47 (broadcastInDim S1700000x1 ![0] bcast_S1700000_S1700000x1_0 : (⟨S1700000, .i32⟩ : BufTy).Contents (Elt F) → (⟨S1700000x1, .i32⟩ : BufTy).Contents (Elt F)),
    ternary main_v46 main_v47 main_v45 main_v48 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]
/-- The first bias, the positive part, the second dense product. -/
abbrev rMid : List (HloOp τ sig (Elt F)) :=
  [ unary main_arg3 main_v49 (broadcastInDim S1x128 ![1] bcast_S128_S1x128_1 : (⟨S128, .f32⟩ : BufTy).Contents (Elt F) → (⟨S1x128, .f32⟩ : BufTy).Contents (Elt F)),
    unary main_v49 main_v50 (broadcastInDim S100000x128 ![0, 1] bcast_S1x128_S100000x128_0_1 : (⟨S1x128, .f32⟩ : BufTy).Contents (Elt F) → (⟨S100000x128, .f32⟩ : BufTy).Contents (Elt F)),
    binary main_v48 main_v50 main_v51 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v51) (TRef.of (T := ⟨S100000x128, .f32⟩) main_call1_v0) (TRef.of (T := ⟨S100000x128, .f32⟩) main_v52) maximumf,
    binary main_v52 main_arg4 main_v53 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]
/-- The second aggregation. -/
abbrev r3 : List (HloOp τ sig (Elt F)) :=
  [ nullary main_c_11 (constantI S_ 32 0#32),
    unary main_c_11 main_v54 (broadcastInDim S1700000 ![] bcast_S_S1700000 : (⟨S_, .i32⟩ : BufTy).Contents (Elt F) → (⟨S1700000, .i32⟩ : BufTy).Contents (Elt F)),
    binary main_v5 main_v54 main_v55 (cmpi .slt : (⟨S1700000, .i32⟩ : BufTy).Contents (Elt F) → (⟨S1700000, .i32⟩ : BufTy).Contents (Elt F) → (⟨S1700000, .i1⟩ : BufTy).Contents (Elt F)),
    nullary main_c_12 (constantI S_ 32 100000#32),
    unary main_c_12 main_v56 (broadcastInDim S1700000 ![] bcast_S_S1700000 : (⟨S_, .i32⟩ : BufTy).Contents (Elt F) → (⟨S1700000, .i32⟩ : BufTy).Contents (Elt F)),
    binary main_v5 main_v56 main_v57 (addi : (⟨S1700000, .i32⟩ : BufTy).Contents (Elt F) → (⟨S1700000, .i32⟩ : BufTy).Contents (Elt F) → (⟨S1700000, .i32⟩ : BufTy).Contents (Elt F)),
    ternary main_v55 main_v57 main_v5 main_v58 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v58 main_v59 (broadcastInDim S1700000x1 ![0] bcast_S1700000_S1700000x1_0 : (⟨S1700000, .i32⟩ : BufTy).Contents (Elt F) → (⟨S1700000x1, .i32⟩ : BufTy).Contents (Elt F)),
    binary main_v53 main_v59 main_v60 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v34 main_v61 (broadcastInDim S1700000x1 ![0] bcast_S1700000_S1700000x1_0 : (⟨S1700000, .f32⟩ : BufTy).Contents (Elt F) → (⟨S1700000x1, .f32⟩ : BufTy).Contents (Elt F)),
    unary main_v61 main_v62 (broadcastInDim S1700000x128 ![0, 1] bcast_S1700000x1_S1700000x128_0_1 : (⟨S1700000x1, .f32⟩ : BufTy).Contents (Elt F) → (⟨S1700000x128, .f32⟩ : BufTy).Contents (Elt F)),
    binary main_v60 main_v62 main_v63 (mulf : (⟨S1700000x128, .f32⟩ : BufTy).Contents (Elt F) → (⟨S1700000x128, .f32⟩ : BufTy).Contents (Elt F) → (⟨S1700000x128, .f32⟩ : BufTy).Contents (Elt F)),
    nullary main_cst_13 (constant S_ .f32 0x00000000#32),
    unary main_cst_13 main_v64 (broadcastInDim S100000x128 ![] bcast_S_S100000x128 : (⟨S_, .f32⟩ : BufTy).Contents (Elt F) → (⟨S100000x128, .f32⟩ : BufTy).Contents (Elt F)),
    unary main_v6 main_v65 (broadcastInDim S1700000x1 ![0] bcast_S1700000_S1700000x1_0 : (⟨S1700000, .i32⟩ : BufTy).Contents (Elt F) → (⟨S1700000x1, .i32⟩ : BufTy).Contents (Elt F)),
    ternary main_v64 main_v65 main_v63 main_v66 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]
/-- The last bias. -/
abbrev rEnd : List (HloOp τ sig (Elt F)) :=
  [ unary main_arg5 main_v67 (broadcastInDim S1x128 ![1] bcast_S128_S1x128_1 : (⟨S128, .f32⟩ : BufTy).Contents (Elt F) → (⟨S1x128, .f32⟩ : BufTy).Contents (Elt F)),
    unary main_v67 main_v68 (broadcastInDim S100000x128 ![0, 1] bcast_S1x128_S100000x128_0_1 : (⟨S1x128, .f32⟩ : BufTy).Contents (Elt F) → (⟨S100000x128, .f32⟩ : BufTy).Contents (Elt F)),
    binary main_v66 main_v68 main_v69 (addf : (⟨S100000x128, .f32⟩ : BufTy).Contents (Elt F) → (⟨S100000x128, .f32⟩ : BufTy).Contents (Elt F) → (⟨S100000x128, .f32⟩ : BufTy).Contents (Elt F)) ]

set_option maxRecDepth 8192 in
/-- The operation list is the stretches in order. -/
theorem ops_eq : (ops : List (HloOp τ sig (Elt F))) = r0 ++ (r01 ++ (r02 ++ (rDot1 ++ (r1 ++ (rMid ++ (r3 ++ rEnd)))))) := rfl

variable (W : Valuation τ sig (Elt F))

/-- So its fold is the stretches' folds, one after the other. -/
theorem ops_fold : after ops W = after rEnd (after r3 (after rMid (after r1 (after rDot1 (after r02 (after r01 (after r0 W))))))) := by
  rw [ops_eq]
  simp only [StableHlo.after_append]

/-! ## Each stretch -/

theorem r0_v5 : after r0 W (Proc.devRef .tc main_v5) = srcOf (W (Proc.devRef .tc main_arg1)) := by
  dsimp only [r0]; after_results; rfl
theorem r0_v6 : after r0 W (Proc.devRef .tc main_v6) = dstOf (W (Proc.devRef .tc main_arg1)) := by
  dsimp only [r0]; after_results; rfl
theorem r0_v9 : after r0 W (Proc.devRef .tc main_v9) = ewOf := by
  dsimp only [r0]; after_results; rfl
theorem r0_v14 : after r0 W (Proc.devRef .tc main_v14) = posOf (degOf (dstOf (W (Proc.devRef .tc main_arg1))) ewOf) := by
  dsimp only [r0]; after_results; rfl
theorem r0_v17 : after r0 W (Proc.devRef .tc main_v17) = rsqOf (degOf (dstOf (W (Proc.devRef .tc main_arg1))) ewOf) := by
  dsimp only [r0]; after_results; rfl
theorem r0_cst4 : after r0 W (Proc.devRef .tc main_cst_4) = constant (F := F) Cert.KernelIdeal.S_ .f32 0x00000000#32 := by
  dsimp only [r0]; after_results
theorem r0_keep (b : Ref sig .tc) (hb : b ∈ [main_arg0, main_arg1, main_arg2, main_arg3, main_arg4, main_arg5]) :
    after r0 W (Proc.devRef .tc b) = W (Proc.devRef .tc b) := by
  simp only [List.mem_cons, List.not_mem_nil, or_false] at hb
  rcases hb with rfl | rfl | rfl | rfl | rfl | rfl
  all_goals (dsimp only [r0]; after_results)

theorem r01_v18 : after r01 W (Proc.devRef .tc main_v18) = whereOf (W (Proc.devRef .tc main_v14)) (W (Proc.devRef .tc main_v17)) (W (Proc.devRef .tc main_cst_4)) := by
  dsimp only [r01]; after_results; rfl
theorem r01_keep (b : Ref sig .tc) (hb : b ∈ [main_v5, main_v6, main_v9, main_arg0, main_arg1, main_arg2, main_arg3, main_arg4, main_arg5]) :
    after r01 W (Proc.devRef .tc b) = W (Proc.devRef .tc b) := by
  simp only [List.mem_cons, List.not_mem_nil, or_false] at hb
  rcases hb with rfl | rfl | rfl | rfl | rfl | rfl | rfl | rfl | rfl
  all_goals (dsimp only [r01]; after_results)

theorem r02_v34 : after r02 W (Proc.devRef .tc main_v34) = coefOf (W (Proc.devRef .tc main_v18)) (W (Proc.devRef .tc main_v5)) (W (Proc.devRef .tc main_v6)) (W (Proc.devRef .tc main_v9)) := by
  dsimp only [r02]; after_results_simp; rfl
theorem r02_keep (b : Ref sig .tc) (hb : b ∈ [main_v5, main_v6, main_arg0, main_arg1, main_arg2, main_arg3, main_arg4, main_arg5]) :
    after r02 W (Proc.devRef .tc b) = W (Proc.devRef .tc b) := by
  simp only [List.mem_cons, List.not_mem_nil, or_false] at hb
  rcases hb with rfl | rfl | rfl | rfl | rfl | rfl | rfl | rfl
  all_goals (dsimp only [r02]; after_results_simp)

theorem rDot1_v35 : after rDot1 W (Proc.devRef .tc main_v35) = dense (W (Proc.devRef .tc main_arg0)) (W (Proc.devRef .tc main_arg2)) := by
  dsimp only [rDot1]; after_results; rfl
theorem rDot1_keep (b : Ref sig .tc) (hb : b ∈ [main_v5, main_v6, main_v34, main_arg0, main_arg1, main_arg2, main_arg3, main_arg4, main_arg5]) :
    after rDot1 W (Proc.devRef .tc b) = W (Proc.devRef .tc b) := by
  simp only [List.mem_cons, List.not_mem_nil, or_false] at hb
  rcases hb with rfl | rfl | rfl | rfl | rfl | rfl | rfl | rfl | rfl
  all_goals (dsimp only [rDot1]; after_results)

theorem r1_v48 : after r1 W (Proc.devRef .tc main_v48) = agg (W (Proc.devRef .tc main_v35)) (W (Proc.devRef .tc main_v5)) (W (Proc.devRef .tc main_v6)) (W (Proc.devRef .tc main_v34)) := by
  dsimp only [r1]; after_results_simp; rfl
theorem r1_keep (b : Ref sig .tc) (hb : b ∈ [main_v5, main_v6, main_v34, main_arg0, main_arg1, main_arg2, main_arg3, main_arg4, main_arg5]) :
    after r1 W (Proc.devRef .tc b) = W (Proc.devRef .tc b) := by
  simp only [List.mem_cons, List.not_mem_nil, or_false] at hb
  rcases hb with rfl | rfl | rfl | rfl | rfl | rfl | rfl | rfl | rfl
  all_goals (dsimp only [r1]; after_results_simp)

theorem rMid_v53 : after rMid W (Proc.devRef .tc main_v53) = dense (addRowRelu (W (Proc.devRef .tc main_v48)) (rowOf (W (Proc.devRef .tc main_arg3)))) (W (Proc.devRef .tc main_arg4)) := by
  dsimp only [rMid]; after_results; rfl
theorem rMid_keep (b : Ref sig .tc) (hb : b ∈ [main_v5, main_v6, main_v34, main_arg0, main_arg1, main_arg2, main_arg3, main_arg4, main_arg5]) :
    after rMid W (Proc.devRef .tc b) = W (Proc.devRef .tc b) := by
  simp only [List.mem_cons, List.not_mem_nil, or_false] at hb
  rcases hb with rfl | rfl | rfl | rfl | rfl | rfl | rfl | rfl | rfl
  all_goals (dsimp only [rMid]; after_results)

theorem r3_v66 : after r3 W (Proc.devRef .tc main_v66) = agg (W (Proc.devRef .tc main_v53)) (W (Proc.devRef .tc main_v5)) (W (Proc.devRef .tc main_v6)) (W (Proc.devRef .tc main_v34)) := by
  dsimp only [r3]; after_results_simp; rfl
theorem r3_keep (b : Ref sig .tc) (hb : b ∈ [main_arg0, main_arg1, main_arg2, main_arg3, main_arg4, main_arg5]) :
    after r3 W (Proc.devRef .tc b) = W (Proc.devRef .tc b) := by
  simp only [List.mem_cons, List.not_mem_nil, or_false] at hb
  rcases hb with rfl | rfl | rfl | rfl | rfl | rfl
  all_goals (dsimp only [r3]; after_results_simp)

theorem rEnd_v69 : after rEnd W (Proc.devRef .tc main_v69) = addRow (W (Proc.devRef .tc main_v66)) (rowOf (W (Proc.devRef .tc main_arg5))) := by
  dsimp only [rEnd]; after_results; rfl
theorem rEnd_keep (b : Ref sig .tc) (hb : b ∈ [main_arg0, main_arg1, main_arg2, main_arg3, main_arg4, main_arg5]) :
    after rEnd W (Proc.devRef .tc b) = W (Proc.devRef .tc b) := by
  simp only [List.mem_cons, List.not_mem_nil, or_false] at hb
  rcases hb with rfl | rfl | rfl | rfl | rfl | rfl
  all_goals (dsimp only [rEnd]; after_results)

end Cert.Gcn.RSide

end
-- ==== Proof.RefValue.lean ====
/-
  The reference program's result as a function of its six inputs, from any buffer contents `W`: the stretches' stages
  composed in order, each stretch reading what the earlier ones left.
-/
import proofs.«114086_j50483045597683_1_alg».proof.Proof.RStretch

noncomputable section

namespace Cert.Gcn.RSide

open Cert.Gcn Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F] (W : Valuation τ sig (Elt F))

/-- The reference's result buffer after its operations: the network's function of the argument buffers' contents. -/
theorem value : after ops W (Proc.devRef .tc main_v69)
    = gcn (W (Proc.devRef .tc main_arg0)) (W (Proc.devRef .tc main_arg1)) (W (Proc.devRef .tc main_arg2)) (W (Proc.devRef .tc main_arg3)) (W (Proc.devRef .tc main_arg4)) (W (Proc.devRef .tc main_arg5)) := by
  rw [ops_fold]
  refine (rEnd_v69 _).trans ?_
  rw [r3_v66, r3_keep _ main_arg5 (by decide)]
  rw [rMid_v53, rMid_keep _ main_v5 (by decide), rMid_keep _ main_v6 (by decide), rMid_keep _ main_v34 (by decide), rMid_keep _ main_arg5 (by decide)]
  rw [r1_v48, r1_keep _ main_v5 (by decide), r1_keep _ main_v6 (by decide), r1_keep _ main_v34 (by decide), r1_keep _ main_arg3 (by decide),
    r1_keep _ main_arg4 (by decide), r1_keep _ main_arg5 (by decide)]
  rw [rDot1_v35, rDot1_keep _ main_v5 (by decide), rDot1_keep _ main_v6 (by decide), rDot1_keep _ main_v34 (by decide), rDot1_keep _ main_arg3 (by decide),
    rDot1_keep _ main_arg4 (by decide), rDot1_keep _ main_arg5 (by decide)]
  rw [r02_v34, r02_keep _ main_v5 (by decide), r02_keep _ main_v6 (by decide), r02_keep _ main_arg0 (by decide), r02_keep _ main_arg2 (by decide),
    r02_keep _ main_arg3 (by decide), r02_keep _ main_arg4 (by decide), r02_keep _ main_arg5 (by decide)]
  rw [r01_v18, r01_keep _ main_v5 (by decide), r01_keep _ main_v6 (by decide), r01_keep _ main_v9 (by decide), r01_keep _ main_arg0 (by decide),
    r01_keep _ main_arg2 (by decide), r01_keep _ main_arg3 (by decide), r01_keep _ main_arg4 (by decide), r01_keep _ main_arg5 (by decide)]
  rw [r0_v14, r0_v17, r0_cst4, r0_v5, r0_v6, r0_v9, r0_keep _ main_arg0 (by decide), r0_keep _ main_arg2 (by decide), r0_keep _ main_arg3 (by decide),
    r0_keep _ main_arg4 (by decide), r0_keep _ main_arg5 (by decide)]
  rfl

/-- No operation writes an argument buffer. -/
theorem kept (b : Ref sig .tc) (hb : b ∈ [main_arg0, main_arg1, main_arg2, main_arg3, main_arg4, main_arg5]) :
    after ops W (Proc.devRef .tc b) = W (Proc.devRef .tc b) := by
  rw [ops_fold]
  simp only [List.mem_cons, List.not_mem_nil, or_false] at hb
  rcases hb with rfl | rfl | rfl | rfl | rfl | rfl
  all_goals exact (rEnd_keep _ _ (by decide)).trans ((r3_keep _ _ (by decide)).trans ((rMid_keep _ _ (by decide)).trans ((r1_keep _ _ (by decide)).trans
    ((rDot1_keep _ _ (by decide)).trans ((r02_keep _ _ (by decide)).trans ((r01_keep _ _ (by decide)).trans (r0_keep _ _ (by decide))))))))

end Cert.Gcn.RSide

end
-- ==== Proof.lean ====
/-
  A two-layer graph convolution (100000 nodes, 128 channels, 1600000 edges and one self loop per node) computed with four
  Pallas kernels around the host's gather and scatter-add, against the plain jnp network.

  With src, dst the edge endpoints followed by the self loops, deg[v] the weighted in-degree (weight 1 per edge, 2 per
  self loop), dis = deg^(-1/2) where deg > 0 and 0 elsewhere, and the edge coefficient c_e = dis[src e] · w_e · dis[dst e],
  one layer is  h ↦ (Σ_{e : dst e = v} (h · W)[src e, :] · c_e)_v + b,  and the network is
      out = layer₂ (max (layer₁ x) 0).
  The kernel program computes h · W in 20 row blocks of 5000 by a block product into a zero accumulator (the operands'
  change of float format is the identity on the extended reals), leaves the gather, the scaling and the scatter-add to the
  host exactly as the reference writes them, and adds the bias (and takes the positive part) block by block again.  So at
  the ideal values both programs compute the SAME composition of the same host stages; what differs is
    · a block product of rows 5000·t … 5000·t + 4999 against the whole-array product: entry (p, q) of either is
      Σ_k x[p, k] · W[k, q], and the 20 blocks tile the rows;
    · a bias row added to a block by a vector broadcast against a host broadcast over the whole array: both read the row's
      entry (0, q); the row itself is a reshape of the bias in one program and a broadcast of it in the other.
  No law of the extended reals beyond these index identities is used, so the precondition is not opened.
-/
import proofs.«114086_j50483045597683_1_alg».proof.Defs
import proofs.«114086_j50483045597683_1_alg».proof.Proof.Gen.Kernel
import proofs.«114086_j50483045597683_1_alg».proof.Proof.Gen.Kernel.Frame
import proofs.«114086_j50483045597683_1_alg».proof.Proof.Gen.KernelIdeal
import proofs.«114086_j50483045597683_1_alg».proof.Proof.Gen.KernelIdeal.Frame
import proofs.«114086_j50483045597683_1_alg».proof.Proof.Gen.ReferenceIdeal
import proofs.«114086_j50483045597683_1_alg».proof.Proof.Gen.Pre_finite_inputs
import proofs.«114086_j50483045597683_1_alg».proof.Proof.RunNamed
import proofs.«114086_j50483045597683_1_alg».proof.Proof.KernelValue
import proofs.«114086_j50483045597683_1_alg».proof.Proof.RefOps
import proofs.«114086_j50483045597683_1_alg».proof.Proof.RefValue
import Idealize.ShloMosaic.Adequacy
import Idealize.ShloMosaic.Init

noncomputable section

namespace Cert.Proof

open Idealize.ShloMosaic Idealize.SL.Sem

/-- The word-level kernel program runs and leaves its arguments alone: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs, and none of its operations writes an argument buffer. -/
theorem frame_ri : Cert.frame_ReferenceIdeal := fun m ρ _ =>
  (θ_run Cert.ReferenceIdeal.defs _ _).mono (fun _ h c =>
    ⟨(h c Cert.ReferenceIdeal.main_arg0).trans (Cert.Gcn.RSide.kept _ _ (by decide)),
     (h c Cert.ReferenceIdeal.main_arg1).trans (Cert.Gcn.RSide.kept _ _ (by decide)),
     (h c Cert.ReferenceIdeal.main_arg2).trans (Cert.Gcn.RSide.kept _ _ (by decide)),
     (h c Cert.ReferenceIdeal.main_arg3).trans (Cert.Gcn.RSide.kept _ _ (by decide)),
     (h c Cert.ReferenceIdeal.main_arg4).trans (Cert.Gcn.RSide.kept _ _ (by decide)),
     (h c Cert.ReferenceIdeal.main_arg5).trans (Cert.Gcn.RSide.kept _ _ (by decide))⟩)
    (Cert.ReferenceIdeal.ValueP.run (F := Ideal) m ρ)

/-- The ideal pass rewrote nothing. -/
theorem preserves : Cert.preserves_Kernel_KernelIdeal := trivial

/-- Both programs end with the network's function of the (agreeing) arguments in their result buffer. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun _ h c => ⟨(h c).1.trans (Cert.Gcn.KSide.value m ρ c), (h c).2⟩)
      (Cert.KernelIdeal.Named.run_named (F := Ideal) m ρ)
  · refine (θ_run Cert.ReferenceIdeal.defs _ _).mono (fun _ h c =>
      ⟨(h c Cert.ReferenceIdeal.main_v69).trans ((Cert.Gcn.RSide.value _).trans ?_),
       (h c Cert.ReferenceIdeal.main_arg0).trans (Cert.Gcn.RSide.kept _ _ (by decide)),
       (h c Cert.ReferenceIdeal.main_arg1).trans (Cert.Gcn.RSide.kept _ _ (by decide)),
       (h c Cert.ReferenceIdeal.main_arg2).trans (Cert.Gcn.RSide.kept _ _ (by decide)),
       (h c Cert.ReferenceIdeal.main_arg3).trans (Cert.Gcn.RSide.kept _ _ (by decide)),
       (h c Cert.ReferenceIdeal.main_arg4).trans (Cert.Gcn.RSide.kept _ _ (by decide)),
       (h c Cert.ReferenceIdeal.main_arg5).trans (Cert.Gcn.RSide.kept _ _ (by decide))⟩)
      (Cert.ReferenceIdeal.ValueP.run (F := Ideal) m' ρ')
    show Cert.Gcn.gcn (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = _
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
